-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S256x5 : Shape := ⟨2, ![256, 5]⟩
abbrev S5 : Shape := ⟨1, ![5]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg6 : FVec F S5 .f32) (main_v13 : IVec S_ 1) (main_v16 : IVec S256x5 1) : IVec S_ 1 :=
  let main_c_5 : IVec S_ 1 := constantI S_ 1 1#1
  let main_v17 : IVec S_ 1 := (fun x v => Host.reduce IntOp.andi x v reducesTo_S256x5_S_d0_1 h_S_) main_v16 main_c_5
  let main_v18 : IVec S_ 1 := andi main_v13 main_v17
  let main_v19 : FVec F S5 .f32 := Host.absf main_arg6
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S2x200000 32) (main_arg3 : FVec F S128x128 .f32) (main_arg4 : FVec F S128 .f32) (main_arg5 : FVec F S256x5 .f32) (main_arg6 : FVec F S5 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x5 .f32 := Host.absf main_arg5
  let main_cst_4 : FVec F S_ .f32 := constant S_ .f32 0x7F800000#32
  let main_v15 : FVec F S256x5 .f32 := broadcastInDim S256x5 ![] bcast_S_S256x5 main_cst_4
  let main_v16 : IVec S256x5 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S256x5 : Shape := ⟨2, ![256, 5]⟩
abbrev S5 : Shape := ⟨1, ![5]⟩
abbrev S5000x128 : Shape := ⟨2, ![5000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S1x5 : Shape := ⟨2, ![1, 5]⟩
abbrev S200000x5 : Shape := ⟨2, ![200000, 5]⟩
abbrev S5000x256 : Shape := ⟨2, ![5000, 256]⟩
abbrev S5000x5 : Shape := ⟨2, ![5000, 5]⟩

abbrev nBuf : Space → Nat
  | .hbm => 92
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S256x5, .f32⟩
  | .hbm, ⟨6, _⟩ => ⟨S5, .f32⟩
  | .hbm, ⟨7, _⟩ => ⟨S100000x128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S1x200000, .i32⟩
  | .hbm, ⟨68, _⟩ => ⟨S200000, .i32⟩
  | .hbm, ⟨69, _⟩ => ⟨S_, .i32⟩
  | .hbm, ⟨70, _⟩ => ⟨S200000, .i32⟩
  | .hbm, ⟨71, _⟩ => ⟨S200000, .i1⟩
  | .hbm, ⟨72, _⟩ => ⟨S_, .i32⟩
  | .hbm, ⟨73, _⟩ => ⟨S200000, .i32⟩
  | .hbm, ⟨74, _⟩ => ⟨S200000, .i32⟩
  | .hbm, ⟨75, _⟩ => ⟨S200000, .i32⟩
  | .hbm, ⟨76, _⟩ => ⟨S200000x1, .i32⟩
  | .hbm, ⟨77, _⟩ => ⟨S200000x128, .f32⟩
  | .hbm, ⟨78, _⟩ => ⟨S1x200000, .i32⟩
  | .hbm, ⟨79, _⟩ => ⟨S200000, .i32⟩
  | .hbm, ⟨80, _⟩ => ⟨S_, .i32⟩
  | .hbm, ⟨81, _⟩ => ⟨S200000, .i32⟩
  | .hbm, ⟨82, _⟩ => ⟨S200000, .i1⟩
  | .hbm, ⟨83, _⟩ => ⟨S_, .i32⟩
  | .hbm, ⟨84, _⟩ => ⟨S200000, .i32⟩
  | .hbm, ⟨85, _⟩ => ⟨S200000, .i32⟩
  | .hbm, ⟨86, _⟩ => ⟨S200000, .i32⟩
  | .hbm, ⟨87, _⟩ => ⟨S200000x1, .i32⟩
  | .hbm, ⟨88, _⟩ => ⟨S200000x128, .f32⟩
  | .hbm, ⟨89, _⟩ => ⟨S200000x256, .f32⟩
  | .hbm, ⟨90, _⟩ => ⟨S1x5, .f32⟩
  | .hbm, ⟨91, _⟩ => ⟨S200000x5, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x256, .f32⟩
  | .local _ .vmem, ⟨6, _⟩ => ⟨S5000x256, .f32⟩
  | .local _ .vmem, ⟨7, _⟩ => ⟨S256x5, .f32⟩
  | .local _ .vmem, ⟨8, _⟩ => ⟨S1x5, .f32⟩
  | .local _ .vmem, ⟨9, _⟩ => ⟨S5000x5, .f32⟩
  | .local _ .vmem, ⟨10, _⟩ => ⟨S5000x5, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_11 : Ref sig .tc := ⟨.hbm, 80, rfl⟩
abbrev main_v58 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x5 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x5 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x128_S200000x128_S200000x256_d1 : Shape.Concatenates [S200000x128, S200000x128] S200000x256 1
  shapeCasts_S5_S1x5 : S5.ShapeCasts S1x5
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x5_S256x5_0_0 : ∀ a, (![0, 0] : Fin 2 → Nat) a + S256x5.size a ≤ S256x5.size a
  h_S256x5 : 0 < S256x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  inb_S5000x5_S5000x5_0_0 : ∀ a, (![0, 0] : Fin 2 → Nat) a + S5000x5.size a ≤ S5000x5.size a
  h_S5000x5 : 0 < S5000x5.numel
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S200000x1_S200000x128_1_0_n_n_0_1_1128_wf : GatherDims.WF S100000x128 S200000x1 S200000x128 [1] [0] [] [0] [] 1 ![1, 128]
  dot_S5000x256_S256x5_S5000x5_1_0_0_1_n_n_wf : DotDims.WF S5000x256 S256x5 S5000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S200000x256.size a
  hwx1_0 : ∀ i : grid1.Coords, EltTy.bits .f32 = 32 ∨ (Rect.block (s := S200000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x5.size a ≤ S256x5.size a
  hwx1_1 : ∀ i : grid1.Coords, EltTy.bits .f32 = 32 ∨ (Rect.block (s := S256x5) S256x5.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x5.size a ≤ S1x5.size a
  hwx1_2 : ∀ i : grid1.Coords, EltTy.bits .f32 = 32 ∨ (Rect.block (s := S1x5) S1x5.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x5.size a ≤ S200000x5.size a
  hwx1_3 : ∀ i : grid1.Coords, EltTy.bits .f32 = 32 ∨ (Rect.block (s := S200000x5) S5000x5.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S5000x256_S256x5_S5000x5_1_0_0_1_n_n : DotDims S5000x256 S256x5 S5000x5 where
  lhsContracting := [1]
  rhsContracting := [0]
  lhsNonContracting := [0]
  rhsNonContracting := [1]
  lhsBatch := []
  rhsBatch := []
  wf := dot_S5000x256_S256x5_S5000x5_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v65) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x5.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S1x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S5000x5.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S256x5 : Shape := ⟨2, ![256, 5]⟩
abbrev S5 : Shape := ⟨1, ![5]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S200000x5 : Shape := ⟨2, ![200000, 5]⟩
abbrev S1x5 : Shape := ⟨2, ![1, 5]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S256x5, .f32⟩
  | .hbm, ⟨6, _⟩ => ⟨S5, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S100000x128, .f32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S1x200000, .i32⟩
  | .hbm, ⟨68, _⟩ => ⟨S200000, .i32⟩
  | .hbm, ⟨69, _⟩ => ⟨S_, .i32⟩
  | .hbm, ⟨70, _⟩ => ⟨S200000, .i32⟩
  | .hbm, ⟨71, _⟩ => ⟨S200000, .i1⟩
  | .hbm, ⟨72, _⟩ => ⟨S_, .i32⟩
  | .hbm, ⟨73, _⟩ => ⟨S200000, .i32⟩
  | .hbm, ⟨74, _⟩ => ⟨S200000, .i32⟩
  | .hbm, ⟨75, _⟩ => ⟨S200000, .i32⟩
  | .hbm, ⟨76, _⟩ => ⟨S200000x1, .i32⟩
  | .hbm, ⟨77, _⟩ => ⟨S200000x128, .f32⟩
  | .hbm, ⟨78, _⟩ => ⟨S1x200000, .i32⟩
  | .hbm, ⟨79, _⟩ => ⟨S200000, .i32⟩
  | .hbm, ⟨80, _⟩ => ⟨S_, .i32⟩
  | .hbm, ⟨81, _⟩ => ⟨S200000, .i32⟩
  | .hbm, ⟨82, _⟩ => ⟨S200000, .i1⟩
  | .hbm, ⟨83, _⟩ => ⟨S_, .i32⟩
  | .hbm, ⟨84, _⟩ => ⟨S200000, .i32⟩
  | .hbm, ⟨85, _⟩ => ⟨S200000, .i32⟩
  | .hbm, ⟨86, _⟩ => ⟨S200000, .i32⟩
  | .hbm, ⟨87, _⟩ => ⟨S200000x1, .i32⟩
  | .hbm, ⟨88, _⟩ => ⟨S200000x128, .f32⟩
  | .hbm, ⟨89, _⟩ => ⟨S200000x256, .f32⟩
  | .hbm, ⟨90, _⟩ => ⟨S200000x5, .f32⟩
  | .hbm, ⟨91, _⟩ => ⟨S1x5, .f32⟩
  | .hbm, ⟨92, _⟩ => ⟨S200000x5, .f32⟩
  | .hbm, ⟨93, _⟩ => ⟨S200000x5, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_11 : Ref sig .tc := ⟨.hbm, 80, rfl⟩
abbrev main_v58 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x128_S200000x128_S200000x256_d1 : Shape.Concatenates [S200000x128, S200000x128] S200000x256 1
  bcast_S5_S1x5_1 : S5.BroadcastsInDim S1x5 (![1] : Fin 1 → Fin S1x5.rank)
  bcast_S1x5_S200000x5_0_1 : S1x5.BroadcastsInDim S200000x5 (![0, 1] : Fin 2 → Fin S200000x5.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S200000x1_S200000x128_1_0_n_n_0_1_1128_wf : GatherDims.WF S100000x128 S200000x1 S200000x128 [1] [0] [] [0] [] 1 ![1, 128]
  dot_S200000x256_S256x5_S200000x5_1_0_0_1_n_n_wf : DotDims.WF S200000x256 S256x5 S200000x5 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x256_S256x5_S200000x5_1_0_0_1_n_n : DotDims S200000x256 S256x5 S200000x5 where
  lhsContracting := [1]
  rhsContracting := [0]
  lhsNonContracting := [0]
  rhsNonContracting := [1]
  lhsBatch := []
  rhsBatch := []
  wf := dot_S200000x256_S256x5_S200000x5_1_0_0_1_n_n_wf

class Facts : Prop extends Facts₀ where

variable [Facts]
-- ==== Proof.LibConcatPair.lean ====
/-
  Two arrays joined along an axis, with the operands as plain arguments.

  `concatenate t a xs h` takes its operands as a LIST of shape–array pairs and its evidence `h` is stated over that
  list's shapes, so a rewriting pass that may not change an argument other arguments' types depend on stops at the list
  and never rewrites the operands. `join` is the same array for two operands, each a plain argument and the evidence over
  the two shapes only: a term rewritten with `concatenate_pair` (left to right) can be rewritten inside the operands
  afterwards. The tactic `after_results_joined` is the library's one-pass reading of a host operation list
  (`after_results_simp`) with that equation added, for lists whose concatenates have computed operands.
-/
import Idealize.ShloMosaic.PureOps
import Idealize.ShloMosaic.Lib.StableHlo.Run

noncomputable section

namespace Cert.ConcatPair

open Idealize.ShloMosaic

variable {α : Type}

/-- The arrays `x` (of shape `s₁`) and `y` (of shape `s₂`) joined along axis `a` of the result shape `t`. -/
def join (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A concatenate of two operands is their `join`. -/
theorem concatenate_pair (t : Shape) (a : Fin t.rank) (s₁ s₂ : Shape) (x : s₁.Idx → α) (y : s₂.Idx → α)
    (h : Shape.Concatenates [s₁, s₂] t a) :
    concatenate t a [⟨s₁, x⟩, ⟨s₂, y⟩] h = join t a s₁ s₂ x y h := rfl

end Cert.ConcatPair

open Idealize.ShloMosaic.StableHlo in
/-- `after_results_simp` with two-operand concatenates turned into `Cert.ConcatPair.join`, whose operands the pass
    then rewrites like any other operation's. -/
macro "after_results_joined" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.ConcatPair.concatenate_pair]))

end
-- ==== Proof.HostChain.lean ====
/-
  The graph layer between the two matrix products, as one function of the node features already multiplied by the
  layer's weight.

  The edge list gets one self loop per node appended (sources and targets are the two rows of the edge index followed
  by 0, 1, …, n - 1). A node's degree is the number of edges that point at it; its weight is the inverse square root
  of the degree (zero where the degree is not positive). Edge e carries the source's row of xw scaled by the product
  of its two endpoints' weights, and a node's hidden row is the sum of the rows carried by the edges that point at it,
  plus the bias. The result reads, for every labelled pair of nodes, the two hidden rows side by side: an array of
  shape [200000, 256]. Negative node numbers count from the end, as an array index does.

  Both programs compute exactly this chain on the host, the kernel's program from the first tile kernel's result and
  the reference from its own product: it is carried here as ONE function of xw and never opened.
-/
import proofs.«127994_j33303176413370_1_alg».proof.KernelIdeal

noncomputable section

namespace Cert.GraphLayer

open Idealize.ShloMosaic Cert.KernelIdeal Cert.KernelIdeal.Facts₀

variable {F : FTy → Type} [FloatOps F] [Cert.KernelIdeal.Facts]

/-- The edges' source nodes, the self loops' appended: row 0 of the edge index, then 0 … n - 1. -/
def sources (ei : (⟨S2x1600000, .i32⟩ : BufTy).Contents (Elt F)) : (⟨S1700000, .i32⟩ : BufTy).Contents (Elt F) :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The edges' target nodes, the self loops' appended: row 1 of the edge index, then 0 … n - 1. -/
def targets (ei : (⟨S2x1600000, .i32⟩ : BufTy).Contents (Elt F)) : (⟨S1700000, .i32⟩ : BufTy).Contents (Elt F) :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A node number as a row index: a negative one counts from the end (n is added). -/
def wrapNode (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- Each node's degree: the number of edges (self loop included) that point at it. -/
def degree (ei : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 (targets (F := F) ei))
    (broadcastInDim S1700000 ![] bcast_S_S1700000 (constant (F := F) S_ .f32 0x3F800000#32))

/-- Each node's weight: the inverse square root of its degree where that is positive, zero elsewhere. -/
def nodeWeight (ei : (⟨S2x1600000, .i32⟩ : BufTy).Contents (Elt F)) : (⟨S100000, .f32⟩ : BufTy).Contents (Elt F) :=
  select (cmpf .ogt (degree (F := F) ei) (broadcastInDim S100000 ![] bcast_S_S100000 (constant (F := F) S_ .f32 0x00000000#32)))
    (Host.rsqrt (degree (F := F) ei))
    (broadcastInDim S100000 ![] bcast_S_S100000 (id (constant (F := F) S_ .f32 0x00000000#32)))

/-- Each edge's weight: the product of its two endpoints' weights. -/
def edgeWeight (ei : (⟨S2x1600000, .i32⟩ : BufTy).Contents (Elt F)) : (⟨S1700000, .f32⟩ : BufTy).Contents (Elt F) :=
  mulf
    (Host.gather gather_S100000_S1700000x1_S1700000_n_0_n_n_0_1_1 (nodeWeight (F := F) ei)
      (broadcastInDim S1700000x1 ![0] bcast_S1700000_S1700000x1_0 (wrapNode (F := F) (sources (F := F) ei))))
    (Host.gather gather_S100000_S1700000x1_S1700000_n_0_n_n_0_1_1 (nodeWeight (F := F) ei)
      (broadcastInDim S1700000x1 ![0] bcast_S1700000_S1700000x1_0 (wrapNode (F := F) (targets (F := F) ei))))

/-- What each edge carries: its source's row of xw, scaled by the edge's weight. -/
def messages (xw : (⟨S100000x128, .f32⟩ : BufTy).Contents (Elt F)) (ei : (⟨S2x1600000, .i32⟩ : BufTy).Contents (Elt F)) :
    (⟨S1700000x128, .f32⟩ : BufTy).Contents (Elt F) :=
  mulf
    (Host.gather gather_S100000x128_S1700000x1_S1700000x128_1_0_n_n_0_1_1128 xw
      (broadcastInDim S1700000x1 ![0] bcast_S1700000_S1700000x1_0 (wrapNode (F := F) (sources (F := F) ei))))
    (broadcastInDim S1700000x128 ![0, 1] bcast_S1700000x1_S1700000x128_0_1
      (broadcastInDim S1700000x1 ![0] bcast_S1700000_S1700000x1_0 (edgeWeight (F := F) ei)))

/-- Each node's hidden row: the sum of what the edges pointing at it carry, plus the bias. -/
def hidden (xw : (⟨S100000x128, .f32⟩ : BufTy).Contents (Elt F)) (ei : (⟨S2x1600000, .i32⟩ : BufTy).Contents (Elt F))
    (bias : (⟨S128, .f32⟩ : BufTy).Contents (Elt F)) : (⟨S100000x128, .f32⟩ : BufTy).Contents (Elt F) :=
  addf
    (Host.scatterAdd scatter_S100000x128_S1700000x1_S1700000x128_1_0_0_1
      (broadcastInDim S100000x128 ![] bcast_S_S100000x128 (constant (F := F) S_ .f32 0x00000000#32))
      (broadcastInDim S1700000x1 ![0] bcast_S1700000_S1700000x1_0 (targets (F := F) ei))
      (messages (F := F) xw ei))
    (broadcastInDim S100000x128 ![0, 1] bcast_S1x128_S100000x128_0_1 (broadcastInDim S1x128 ![1] bcast_S128_S1x128_1 bias))

/-- The labelled pairs' first nodes: row 0 of the label index. -/
def firstEnds (eli : (⟨S2x200000, .i32⟩ : BufTy).Contents (Elt F)) : (⟨S200000, .i32⟩ : BufTy).Contents (Elt F) :=
  shapeCast S200000 (extractStridedSlice S1x200000 ![0, 0] eli slices_S2x200000_S1x200000_0_0) shapeCasts_S1x200000_S200000

/-- The labelled pairs' second nodes: row 1 of the label index. -/
def secondEnds (eli : (⟨S2x200000, .i32⟩ : BufTy).Contents (Elt F)) : (⟨S200000, .i32⟩ : BufTy).Contents (Elt F) :=
  shapeCast S200000 (extractStridedSlice S1x200000 ![1, 0] eli slices_S2x200000_S1x200000_1_0) shapeCasts_S1x200000_S200000

/-- The hidden rows of a list of nodes (a negative node number counts from the end). -/
def rowsOf (h : (⟨S100000x128, .f32⟩ : BufTy).Contents (Elt F)) (v : (⟨S200000, .i32⟩ : BufTy).Contents (Elt F)) :
    (⟨S200000x128, .f32⟩ : BufTy).Contents (Elt F) :=
  Host.gather gather_S100000x128_S200000x1_S200000x128_1_0_n_n_0_1_1128 h
    (broadcastInDim S200000x1 ![0] bcast_S200000_S200000x1_0
      (select (cmpi .slt v (broadcastInDim S200000 ![] bcast_S_S200000 (constantI S_ 32 0#32)))
        (addi v (broadcastInDim S200000 ![] bcast_S_S200000 (constantI S_ 32 100000#32))) v))

/-- Every labelled pair's two hidden rows side by side. -/
def pairRows (xw : (⟨S100000x128, .f32⟩ : BufTy).Contents (Elt F)) (ei : (⟨S2x1600000, .i32⟩ : BufTy).Contents (Elt F))
    (eli : (⟨S2x200000, .i32⟩ : BufTy).Contents (Elt F)) (bias : (⟨S128, .f32⟩ : BufTy).Contents (Elt F)) :
    (⟨S200000x256, .f32⟩ : BufTy).Contents (Elt F) :=
  concatenate S200000x256 1
    [⟨S200000x128, rowsOf (F := F) (hidden (F := F) xw ei bias) (firstEnds (F := F) eli)⟩,
     ⟨S200000x128, rowsOf (F := F) (hidden (F := F) xw ei bias) (secondEnds (F := F) eli)⟩]
    concatenates_S200000x128_S200000x128_S200000x256_d1

end Cert.GraphLayer

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.LibDenseRows.lean ====
/-
  Rows of a dense layer over the extended reals.

  A graph layer takes, for each node r, the mean A (r, ·) of its neighbours' feature rows and the node's own row X (r, ·),
  sends the first through a weight matrix Wl and the second through Wr, and adds a bias row b:

      pre (r, c) = sum over k of A (r, k) * Wl (k, c)  +  sum over k of X (r, k) * Wr (k, c)  +  b (c).

  Two spellings of that entry are read here at any extents: the host's, two whole products [M, K] x [K, N] and the bias
  broadcast through a [1, N] row; and a tile's, two products of a block of rows into the zero accumulator and the bias
  cast to a [1, N] row and broadcast down the tile. Each is the entry `pre` of its operands; a tile of rows o … o + T - 1
  of the arrays is then the same entry at row o + r, since an entry of a product reads one row of the left operand only.
-/
import Idealize.ShloMosaic.Lib.ValueIdx
import Idealize.ShloMosaic.Lib.ValueLayout
import Idealize.ShloMosaic.Lib.Pipeline.Value
import Idealize.ShloMosaic.PureOps.Ideal.Laws
import proofs.«127994_j33303176413370_1_alg».proof.Proof.LibPlainMatmul

noncomputable section

namespace Cert.DenseRows

open Idealize.ShloMosaic Idealize.ShloMosaic.ValueIdx

variable {M K N : ℕ}

/-- Entry (r, c) of the host's product [M, K] x [K, N] is the sum over k of a (r, k) * b (k, c). -/
theorem hostDot_apply (prec : Option ContractPrecision) {φ₁ φ₂ : FTy} (a : FVec Ideal ⟨2, ![M, K]⟩ φ₁) (b : FVec Ideal ⟨2, ![K, N]⟩ φ₂)
    (r : Fin M) (c : Fin N) :
    Host.dotGeneral (DotDims.plain M K N) prec a b (ix2 r c) = ∑ k : Fin K, a (ix2 r k) * b (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact Cert.PlainMatmul.lhs_row _ _
      | ⟨1, _⟩ => exact (Cert.PlainMatmul.lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (Cert.PlainMatmul.rhs_row _ _).trans hk
      | ⟨1, _⟩ => exact Cert.PlainMatmul.rhs_col _ _)
  rw [el, er]

/-- The layer's entry (r, c) before its activation. -/
def pre (A X : (⟨2, ![M, K]⟩ : Shape).Idx → EReal) (Wl Wr : (⟨2, ![K, N]⟩ : Shape).Idx → EReal)
    (b : (⟨1, ![N]⟩ : Shape).Idx → EReal) (r : Fin M) (c : Fin N) : EReal :=
  (∑ k : Fin K, A (ix2 r k) * Wl (ix2 k c)) + (∑ k : Fin K, X (ix2 r k) * Wr (ix2 k c)) + b (ix1 c)

/-- A bias row broadcast first to [1, N] and then to [M, N] reads, at (r, c), the bias at c. -/
theorem hostBias_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) := by
  rw [broadcastInDim_apply ![0, 1] h2 _ (ix2 r c) (ix2 (0 : Fin 1) c) (fun a => by
    match a with
    | ⟨0, _⟩ => rfl
    | ⟨1, _⟩ =>
      show c.val = if N = 1 then 0 else c.val
      split
      · have := c.isLt; omega
      · rfl)]
  exact broadcastInDim_apply ![1] h1 b (ix2 (0 : Fin 1) c) (ix1 c) (fun a => by
    match a with
    | ⟨0, _⟩ =>
      show c.val = if N = 1 then 0 else c.val
      split
      · have := c.isLt; omega
      · rfl)

/-- The host's spelling of the layer before its activation — two whole products added, then the bias broadcast through a
    [1, N] row — is `pre` at every entry. -/
theorem host_pre (prec : Option ContractPrecision) (A X : FVec Ideal ⟨2, ![M, K]⟩ .f32) (Wl Wr : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    addf (addf (Host.dotGeneral (DotDims.plain M K N) prec A Wl) (Host.dotGeneral (DotDims.plain M K N) prec X Wr))
        (broadcastInDim ⟨2, ![M, N]⟩ ![0, 1] h2 (broadcastInDim ⟨2, ![1, N]⟩ ![1] h1 b)) (ix2 r c)
      = pre A X Wl Wr b r c := by
  show Host.dotGeneral (DotDims.plain M K N) prec A Wl (ix2 r c) + Host.dotGeneral (DotDims.plain M K N) prec X Wr (ix2 r c)
      + broadcastInDim ⟨2, ![M, N]⟩ ![0, 1] h2 (broadcastInDim ⟨2, ![1, N]⟩ ![1] h1 b) (ix2 r c) = _
  rw [hostDot_apply, hostDot_apply, hostBias_apply]
  rfl

/-- A tile's spelling — two products of [M, K] blocks into the zero accumulator added, then the bias cast to a [1, N] row and
    broadcast down the tile — is `pre` of the tile's operands at every entry, whatever the operands' float formats. -/
theorem tile_pre (prec : Option ContractPrecision) {φa φw : FTy} (A X : FVec Ideal ⟨2, ![M, K]⟩ φa) (Wl Wr : FVec Ideal ⟨2, ![K, N]⟩ φw)
    (b : FVec Ideal ⟨1, ![N]⟩ .f32)
    (h1 : (⟨1, ![N]⟩ : Shape).ShapeCasts ⟨2, ![1, N]⟩)
    (h2 : (⟨2, ![1, N]⟩ : Shape).Broadcasts ⟨2, ![M, N]⟩) (r : Fin M) (c : Fin N) :
    addf (addf (matmul (DotDims.plain M K N) prec A Wl (constant ⟨2, ![M, N]⟩ .f32 0x00000000#32))
          (matmul (DotDims.plain M K N) prec X Wr (constant ⟨2, ![M, N]⟩ .f32 0x00000000#32)))
        (broadcastTo ⟨2, ![M, N]⟩ (shapeCast ⟨2, ![1, N]⟩ b h1) h2) (ix2 r c)
      = pre A X Wl Wr b r c := by
  show FloatOps.matmul (DotDims.plain M K N) prec A Wl (constant ⟨2, ![M, N]⟩ .f32 0x00000000#32) (ix2 r c)
      + FloatOps.matmul (DotDims.plain M K N) prec X Wr (constant ⟨2, ![M, N]⟩ .f32 0x00000000#32) (ix2 r c)
      + broadcastTo ⟨2, ![M, N]⟩ (shapeCast ⟨2, ![1, N]⟩ b h1) h2 (ix2 r c) = _
  rw [Cert.PlainMatmul.apply, Cert.PlainMatmul.apply, broadcastTo_1b_ab_apply, shapeCast_a_1a_apply]
  rfl

/-- An entry of the layer reads one row of each left operand: if a tile's left operands are rows o, o + 1, … of the arrays'
    and its weights and bias are the arrays', the tile's entry (r, c) is the arrays' entry (o + r, c). -/
theorem pre_rows {T : ℕ} (o : ℕ) (A X : (⟨2, ![M, K]⟩ : Shape).Idx → EReal) (Wl Wr : (⟨2, ![K, N]⟩ : Shape).Idx → EReal)
    (b : (⟨1, ![N]⟩ : Shape).Idx → EReal)
    (At Xt : (⟨2, ![T, K]⟩ : Shape).Idx → EReal) (Wlt Wrt : (⟨2, ![K, N]⟩ : Shape).Idx → EReal) (bt : (⟨1, ![N]⟩ : Shape).Idx → EReal)
    (r : Fin T) (R : Fin M) (hR : R.val = o + r.val) (c : Fin N)
    (hA : ∀ k : Fin K, At (ix2 r k) = A (ix2 R k)) (hX : ∀ k : Fin K, Xt (ix2 r k) = X (ix2 R k))
    (hWl : ∀ k : Fin K, Wlt (ix2 k c) = Wl (ix2 k c)) (hWr : ∀ k : Fin K, Wrt (ix2 k c) = Wr (ix2 k c))
    (hb : bt (ix1 c) = b (ix1 c)) :
    pre At Xt Wlt Wrt bt r c = pre A X Wl Wr b R c := by
  unfold pre
  rw [hb]
  congr 2
  · exact Finset.sum_congr rfl fun k _ => by rw [hA k, hWl k]
  · exact Finset.sum_congr rfl fun k _ => by rw [hX k, hWr k]

end Cert.DenseRows

end
-- ==== Proof.Affine.lean ====
/-
  A product of matrices, and a product followed by a bias row, over the extended reals, entry by entry.

  For x of shape [M, K] and w of shape [K, N] the product's entry (r, c) is the sum over k of x (r, k) * w (k, c); the
  affine map adds b (c) of a bias b of shape [1, N]. Three spellings are read here at that entry: the host's whole
  product, the host's product plus the bias broadcast through a [1, N] row, and a tile's product of a block of rows
  into the zero accumulator (plus the bias row broadcast down the tile). An entry of a product reads one row of the left
  operand only, so a tile whose left operand is rows o, o + 1, … of x computes entries (o + r, c) of the whole product.
  No law beyond reading each spelling at an index is used: both sides are the same sum of the same products.
-/
import Idealize.ShloMosaic.Lib.ValueIdx
import Idealize.ShloMosaic.Lib.ValueLayout
import Idealize.ShloMosaic.Lib.Pipeline.Value
import Idealize.ShloMosaic.PureOps.Ideal.Laws
import proofs.«127994_j33303176413370_1_alg».proof.Proof.LibPlainMatmul
import proofs.«127994_j33303176413370_1_alg».proof.Proof.LibDenseRows

noncomputable section

namespace Cert.Affine

open Idealize.ShloMosaic Idealize.ShloMosaic.ValueIdx

variable {M K N : ℕ}

/-- Entry (r, c) of the product x · w. -/
def prodEntry (x : (⟨2, ![M, K]⟩ : Shape).Idx → EReal) (w : (⟨2, ![K, N]⟩ : Shape).Idx → EReal) (r : Fin M) (c : Fin N) : EReal :=
  ∑ k : Fin K, x (ix2 r k) * w (ix2 k c)

/-- The product x · w as an array of shape [M, N]. -/
def prod (x : (⟨2, ![M, K]⟩ : Shape).Idx → EReal) (w : (⟨2, ![K, N]⟩ : Shape).Idx → EReal) :
    (⟨2, ![M, N]⟩ : Shape).Idx → EReal :=
  fun i => prodEntry x w (i 0) (i 1)

/-- The affine map x · w + b, the bias a [1, N] row added to every row of the product. -/
def affine (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => prodEntry x w (i 0) (i 1) + b (ix2 (0 : Fin 1) (i 1))

theorem prod_ix2 (x : (⟨2, ![M, K]⟩ : Shape).Idx → EReal) (w : (⟨2, ![K, N]⟩ : Shape).Idx → EReal) (r : Fin M) (c : Fin N) :
    prod x w (ix2 r c) = prodEntry x w r c := rfl

theorem affine_ix2 (x : (⟨2, ![M, K]⟩ : Shape).Idx → EReal) (w : (⟨2, ![K, N]⟩ : Shape).Idx → EReal)
    (b : (⟨2, ![1, N]⟩ : Shape).Idx → EReal) (r : Fin M) (c : Fin N) :
    affine x w b (ix2 r c) = prodEntry x w r c + b (ix2 (0 : Fin 1) c) := rfl

/-- The host's whole product is `prod`. -/
theorem host_prod (prec : Option ContractPrecision) (x : FVec Ideal ⟨2, ![M, K]⟩ .f32) (w : FVec Ideal ⟨2, ![K, N]⟩ .f32) :
    Host.dotGeneral (DotDims.plain M K N) prec x w = prod x w := by
  funext i
  obtain ⟨r, c, rfl⟩ : ∃ (r : Fin M) (c : Fin N), i = ix2 r c := ⟨i 0, i 1, eq_ix2 i⟩
  exact Cert.DenseRows.hostDot_apply prec x w r c

/-- The host's product plus a bias vector broadcast first to a [1, N] row and then down the rows is `affine` of the
    bias cast to a [1, N] row. -/
theorem host_affine (prec : Option ContractPrecision) (x : FVec Ideal ⟨2, ![M, K]⟩ .f32) (w : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral (DotDims.plain M K N) prec x w)
        (broadcastInDim ⟨2, ![M, N]⟩ ![0, 1] h2 (broadcastInDim ⟨2, ![1, N]⟩ ![1] h1 b))
      = affine x w (shapeCast ⟨2, ![1, N]⟩ b hc) := by
  funext i
  obtain ⟨r, c, rfl⟩ : ∃ (r : Fin M) (c : Fin N), i = ix2 r c := ⟨i 0, i 1, eq_ix2 i⟩
  show Host.dotGeneral (DotDims.plain M K N) prec x w (ix2 r c)
      + broadcastInDim ⟨2, ![M, N]⟩ ![0, 1] h2 (broadcastInDim ⟨2, ![1, N]⟩ ![1] h1 b) (ix2 r c) = _
  rw [Cert.DenseRows.hostDot_apply, Cert.DenseRows.hostBias_apply, affine_ix2, shapeCast_a_1a_apply]
  rfl

/-- A tile's product into the zero accumulator, its left operand the rows of x that hold row R at the tile's row r and
    its right operand w, has at (r, c) the whole product's entry (R, c), whatever the operands' float formats. -/
theorem tile_prod {T : ℕ} (prec : Option ContractPrecision) {φa φw : FTy} (xb : FVec Ideal ⟨2, ![T, K]⟩ φa) (wb : FVec Ideal ⟨2, ![K, N]⟩ φw)
    (x : (⟨2, ![M, K]⟩ : Shape).Idx → EReal) (w : (⟨2, ![K, N]⟩ : Shape).Idx → EReal)
    (r : Fin T) (R : Fin M) (c : Fin N)
    (hx : ∀ k : Fin K, xb (ix2 r k) = x (ix2 R k)) (hw : ∀ k : Fin K, wb (ix2 k c) = w (ix2 k c)) :
    matmul (DotDims.plain T K N) prec xb wb (constant ⟨2, ![T, N]⟩ .f32 0x00000000#32) (ix2 r c) = prodEntry x w R c := by
  show FloatOps.matmul (DotDims.plain T K N) prec xb wb (constant ⟨2, ![T, N]⟩ .f32 0x00000000#32) (ix2 r c) = _
  rw [Cert.PlainMatmul.apply]
  exact Finset.sum_congr rfl fun k _ => by rw [hx k, hw k]

/-- The same tile with a [1, N] bias row broadcast down it and added. -/
theorem tile_affine {T : ℕ} (prec : Option ContractPrecision) {φa φw : FTy} (xb : FVec Ideal ⟨2, ![T, K]⟩ φa) (wb : FVec Ideal ⟨2, ![K, N]⟩ φw)
    (bb : FVec Ideal ⟨2, ![1, N]⟩ .f32)
    (x : (⟨2, ![M, K]⟩ : Shape).Idx → EReal) (w : (⟨2, ![K, N]⟩ : Shape).Idx → EReal) (b : (⟨2, ![1, N]⟩ : Shape).Idx → EReal)
    (h2 : (⟨2, ![1, N]⟩ : Shape).Broadcasts ⟨2, ![T, N]⟩)
    (r : Fin T) (R : Fin M) (c : Fin N)
    (hx : ∀ k : Fin K, xb (ix2 r k) = x (ix2 R k)) (hw : ∀ k : Fin K, wb (ix2 k c) = w (ix2 k c))
    (hb : bb (ix2 (0 : Fin 1) c) = b (ix2 (0 : Fin 1) c)) :
    addf (matmul (DotDims.plain T K N) prec xb wb (constant ⟨2, ![T, N]⟩ .f32 0x00000000#32)) (broadcastTo ⟨2, ![T, N]⟩ bb h2) (ix2 r c)
      = prodEntry x w R c + b (ix2 (0 : Fin 1) c) := by
  show matmul (DotDims.plain T K N) prec xb wb (constant ⟨2, ![T, N]⟩ .f32 0x00000000#32) (ix2 r c)
      + broadcastTo ⟨2, ![T, N]⟩ bb h2 (ix2 r c) = _
  rw [tile_prod prec xb wb x w r R c hx hw, broadcastTo_1b_ab_apply, hb]

end Cert.Affine

end
-- ==== Proof.RefValue.lean ====
/-
  The reference's result as one function of its arguments.

  The reference multiplies the node features by the layer's weight on the host, sends the product through the graph
  layer (the same host chain the kernel's program runs between its two tile kernels), multiplies the labelled pairs'
  rows by the output weight and adds the output bias broadcast through a [1, 5] row. Read entry by entry, the first
  product is the sum over k of x (r, k) * W (k, c) and the last two steps are the affine map E · W' + b: the
  reference's result is the affine map of the graph layer of x · W.
-/
import proofs.«127994_j33303176413370_1_alg».proof.Proof.RefRun
import proofs.«127994_j33303176413370_1_alg».proof.Proof.HostChain
import proofs.«127994_j33303176413370_1_alg».proof.Proof.Affine
import proofs.«127994_j33303176413370_1_alg».proof.Proof.Gen.KernelIdeal

noncomputable section

namespace Cert.ReferenceIdeal.Whole

open Idealize.ShloMosaic Idealize.ShloMosaic.TcCoe Idealize.SL.Sem

/-- The reference's result term, at any float family, is its two host products around the graph layer: the chain between
    them is the kernel program's own, operation by operation. -/
theorem result_chain {F : FTy → Type} [FloatOps F] (m : (ℓ : Loc Cert.ReferenceIdeal.nD Cert.ReferenceIdeal.τ Cert.ReferenceIdeal.sig) → Buf (Elt F) ℓ) (c : Dev Cert.ReferenceIdeal.nD) :
    Cert.ReferenceIdeal.ValueP.res_main_v69 (F := F) m c
      = addf
          (Host.dotGeneral Cert.ReferenceIdeal.dot_S200000x256_S256x5_S200000x5_1_0_0_1_n_n none
            (Cert.GraphLayer.pairRows (F := F)
              (Host.dotGeneral Cert.ReferenceIdeal.dot_S100000x128_S128x128_S100000x128_1_0_0_1_n_n none (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)))
              (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg4)))
            (m ((c.tc : Thread Cert.ReferenceIdeal.nD Cert.ReferenceIdeal.τ).loc Cert.ReferenceIdeal.main_arg5)))
          (broadcastInDim Cert.ReferenceIdeal.S200000x5 ![0, 1] Cert.ReferenceIdeal.Facts₀.bcast_S1x5_S200000x5_0_1
            (broadcastInDim Cert.ReferenceIdeal.S1x5 ![1] Cert.ReferenceIdeal.Facts₀.bcast_S5_S1x5_1 (m ((c.tc : Thread Cert.ReferenceIdeal.nD Cert.ReferenceIdeal.τ).loc Cert.ReferenceIdeal.main_arg6)))) := by
  unfold Cert.ReferenceIdeal.ValueP.res_main_v69
  rfl

/-- Over the extended reals the two host products around the graph layer are the affine map of the graph layer of x · W:
    the first product read entry by entry is `prod`, and the last product plus the bias broadcast through a [1, 5] row is
    `affine` of the bias cast to that row. -/
theorem host_form (x : FVec Ideal Cert.ReferenceIdeal.S100000x128 .f32) (w : FVec Ideal Cert.ReferenceIdeal.S128x128 .f32)
    (ei : (⟨Cert.KernelIdeal.S2x1600000, .i32⟩ : BufTy).Contents (Elt Ideal)) (eli : (⟨Cert.KernelIdeal.S2x200000, .i32⟩ : BufTy).Contents (Elt Ideal))
    (bias : FVec Ideal Cert.ReferenceIdeal.S128 .f32) (wl : FVec Ideal Cert.ReferenceIdeal.S256x5 .f32) (bl : FVec Ideal Cert.ReferenceIdeal.S5 .f32) :
    addf
        (Host.dotGeneral (φ₁ := .f32) Cert.ReferenceIdeal.dot_S200000x256_S256x5_S200000x5_1_0_0_1_n_n none
          (Cert.GraphLayer.pairRows (F := Ideal)
            (Host.dotGeneral Cert.ReferenceIdeal.dot_S100000x128_S128x128_S100000x128_1_0_0_1_n_n none x w) ei eli bias)
          wl)
        (broadcastInDim Cert.ReferenceIdeal.S200000x5 ![0, 1] Cert.ReferenceIdeal.Facts₀.bcast_S1x5_S200000x5_0_1
          (broadcastInDim Cert.ReferenceIdeal.S1x5 ![1] Cert.ReferenceIdeal.Facts₀.bcast_S5_S1x5_1 bl))
      = Cert.Affine.affine (M := 200000) (K := 256) (N := 5)
          (Cert.GraphLayer.pairRows (F := Ideal) (Cert.Affine.prod (M := 100000) (K := 128) (N := 128) x w) ei eli bias)
          wl (shapeCast Cert.KernelIdeal.S1x5 bl Cert.KernelIdeal.Facts₀.shapeCasts_S5_S1x5) := by
  have h1 : Host.dotGeneral Cert.ReferenceIdeal.dot_S100000x128_S128x128_S100000x128_1_0_0_1_n_n none x w
      = Cert.Affine.prod (M := 100000) (K := 128) (N := 128) x w :=
    Cert.Affine.host_prod (M := 100000) (K := 128) (N := 128) none x w
  rw [h1]
  exact Cert.Affine.host_affine (M := 200000) (K := 256) (N := 5) none
    (Cert.GraphLayer.pairRows (F := Ideal) (Cert.Affine.prod (M := 100000) (K := 128) (N := 128) x w) ei eli bias) wl bl
    Cert.ReferenceIdeal.Facts₀.bcast_S5_S1x5_1 Cert.ReferenceIdeal.Facts₀.bcast_S1x5_S200000x5_0_1 Cert.KernelIdeal.Facts₀.shapeCasts_S5_S1x5

/-- Over the extended reals the reference's result is the affine map of the graph layer of x · W. -/
theorem result_eq (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v69 (F := Ideal) m c
      = Cert.Affine.affine (M := 200000) (K := 256) (N := 5)
          (Cert.GraphLayer.pairRows (F := Ideal)
            (Cert.Affine.prod (M := 100000) (K := 128) (N := 128) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)))
            (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg4)))
          (m ((c.tc : Thread Cert.ReferenceIdeal.nD Cert.ReferenceIdeal.τ).loc Cert.ReferenceIdeal.main_arg5))
          (shapeCast Cert.KernelIdeal.S1x5 (m ((c.tc : Thread Cert.ReferenceIdeal.nD Cert.ReferenceIdeal.τ).loc Cert.ReferenceIdeal.main_arg6)) Cert.KernelIdeal.Facts₀.shapeCasts_S5_S1x5) :=
  (result_chain m c).trans
    (host_form (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)))

end Cert.ReferenceIdeal.Whole

end
-- ==== Proof.RegionProduct.lean ====
/-
  The first tile kernel's array: the node features times the layer's weight.

  The region runs over 20 grid points; point t reads rows 5000 t … 5000 t + 4999 of the features x (its block index is
  (t, 0)) and the whole weight W (block index (0, 0)), narrows both to bf16 — the identity over the extended reals —, and
  writes their product into the zero accumulator to rows 5000 t … of the output (block index (t, 0)). Entry (r, c) of a
  tile's product reads row r of the tile's left operand only, which is row 5000 t + r of x: so the tile is block t of
  the one whole product x · W, the 20 blocks tile the output's 100000 rows, and the array ends holding x · W — whatever
  the region finds in the buffers when it is entered.
-/
import proofs.«127994_j33303176413370_1_alg».proof.Proof.Gen.KernelIdeal.Frame
import proofs.«127994_j33303176413370_1_alg».proof.Proof.Affine

set_option maxRecDepth 16384

noncomputable section

namespace Cert.KernelIdeal.Product

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the features' and the output's blocks are (t, 0), the weight's (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The tile's stored value at (r, q), when the tile's left operand holds row R of x at its row r and its right
    operand is W: entry (R, q) of x · W (the narrowing to bf16 is the identity). -/
theorem tile_entry (x0 : Vec Ideal S5000x128 .f32) (x1 : Vec Ideal S128x128 .f32)
    (X : S100000x128.Idx → EReal) (W : S128x128.Idx → EReal) (r : Fin 5000) (q : Fin 128) (R : Fin 100000)
    (hx : ∀ k : Fin 128, x0 (ix2 r k) = X (ix2 R k)) (hw : ∀ k : Fin 128, x1 (ix2 k q) = W (ix2 k q)) :
    k0_pay1 (F := Ideal) x0 x1 (ix2 r q) = Cert.Affine.prodEntry X W R q := by
  unfold k0_pay1
  exact Cert.Affine.tile_prod none (truncf .bf16 x0 bitsLt_bf16_f32) (truncf .bf16 x1 bitsLt_bf16_f32) X W r R q hx hw

/-- What point t writes back is block t of x · W. -/
theorem flushed_product (c : Dev nD) (t : Fin cfg0.N) :
    (dat0 V c).flushed 2 t
      = ((cfg0.win 2).blk t).view.read (Elt Ideal) (Cert.Affine.prod (M := 100000) (K := 128) (N := 128) (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := block_indices t
  have ht : t.val < 20 := lt_of_lt_of_eq t.isLt N_0
  funext j
  obtain ⟨r, q, rfl⟩ : ∃ (r : Fin 5000) (q : Fin 128), j = ix2 r q := ⟨j 0, j 1, eq_ix2 j⟩
  have hr : r.val < 5000 := r.isLt
  have hR : t.val * 5000 + r.val < 100000 := by omega
  have hout : ((cfg0.win 2).blk t).view.emb (ix2 r q) = (ix2 (⟨t.val * 5000 + r.val, hR⟩ : Fin 100000) q : S100000x128.Idx) := by
    funext a; apply Fin.ext
    match a with
    | ⟨0, _⟩ => show win0_2.index t (0 : Fin 2) * 5000 + 1 * r.val = t.val * 5000 + r.val; omega
    | ⟨1, _⟩ => show win0_2.index t (1 : Fin 2) * 128 + 1 * q.val = q.val; omega
  refine (tile_entry (iblk0 V c 0 t) (iblk0 V c 1 t) (V c main_arg0) (V c main_arg3) r q ⟨t.val * 5000 + r.val, hR⟩ ?_ ?_).trans ?_
  · intro k
    show V c main_arg0 (((cfg0.win 0).blk t).view.emb (ix2 r k)) = V c main_arg0 (ix2 (⟨t.val * 5000 + r.val, hR⟩ : Fin 100000) k)
    refine congrArg (V c main_arg0) (funext fun a => Fin.ext ?_)
    match a with
    | ⟨0, _⟩ => show win0_0.index t (0 : Fin 2) * 5000 + 1 * r.val = t.val * 5000 + r.val; omega
    | ⟨1, _⟩ => show win0_0.index t (1 : Fin 2) * 128 + 1 * k.val = k.val; omega
  · intro k
    show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show _ = Cert.Affine.prod (M := 100000) (K := 128) (N := 128) (V c main_arg0) (V c main_arg3) (((cfg0.win 2).blk t).view.emb (ix2 r q))
    rw [hout]
    rfl

/-- An index of the output is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The 20 blocks tile the output: row i lies in the block of point i / 5000. -/
theorem covered (i : S100000x128.Idx) :
    ∃ t : Fin cfg0.N, (cfg0.win 2).flush t = true ∧ i ∈ ((cfg0.win 2).blk t).view.set := by
  have h0 : (i 0).val < 100000 := (i 0).isLt
  have h1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, e4, e5⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's output array ends holding x · W of the arrays the region finds. -/
theorem product_array (c : Dev nD) :
    (dat0 V c).arrAt 2 cfg0.N = Cert.Affine.prod (M := 100000) (K := 128) (N := 128) (V c main_arg0) (V c main_arg3) :=
  (dat0 V c).arrAt_eq_of_cover 2 (Cert.Affine.prod (M := 100000) (K := 128) (N := 128) (V c main_arg0) (V c main_arg3))
    (fun t _ => flushed_product V c t) covered

end Cert.KernelIdeal.Product

end
-- ==== Proof.RegionAffine.lean ====
/-
  The second tile kernel's array: the labelled pairs' rows times the output weight, plus the output bias.

  The region runs over 40 grid points; point t reads rows 5000 t … 5000 t + 4999 of the pair rows E (block index (t, 0)),
  the whole weight W and the whole [1, 5] bias row b (block indices (0, 0)), narrows E's block and W to bf16 — the
  identity over the extended reals —, and writes their product into the zero accumulator plus the bias row broadcast down
  the tile to rows 5000 t … of the output (block index (t, 0)). Entry (r, c) of a tile reads row r of the tile's left
  operand only, which is row 5000 t + r of E: the tile is block t of the one affine map E · W + b, the 40 blocks tile
  the output's 200000 rows, and the array ends holding E · W + b — whatever the region finds in the buffers at its entry.
-/
import proofs.«127994_j33303176413370_1_alg».proof.Proof.Gen.KernelIdeal.Frame
import proofs.«127994_j33303176413370_1_alg».proof.Proof.Affine

set_option maxRecDepth 16384

noncomputable section

namespace Cert.KernelIdeal.AffineTiles

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the pair rows' and the output's blocks are (t, 0), the weight's and the bias's (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The tile's stored value at (r, q), when the tile's left operand holds row R of E at its row r and its other
    operands are W and b: entry (R, q) of E · W, plus b (q). -/
theorem tile_entry (x0 : Vec Ideal S5000x256 .f32) (x1 : Vec Ideal S256x5 .f32) (x2 : Vec Ideal S1x5 .f32)
    (E : S200000x256.Idx → EReal) (W : S256x5.Idx → EReal) (B : S1x5.Idx → EReal) (r : Fin 5000) (q : Fin 5) (R : Fin 200000)
    (hx : ∀ k : Fin 256, x0 (ix2 r k) = E (ix2 R k)) (hw : ∀ k : Fin 256, x1 (ix2 k q) = W (ix2 k q))
    (hb : x2 (ix2 (0 : Fin 1) q) = B (ix2 (0 : Fin 1) q)) :
    k1_pay1 (F := Ideal) x0 x1 x2 (ix2 r q) = Cert.Affine.prodEntry E W R q + B (ix2 (0 : Fin 1) q) := by
  unfold k1_pay1
  rw [shapeCast_self x0, shapeCast_self x2]
  exact Cert.Affine.tile_affine none (truncf .bf16 x0 bitsLt_bf16_f32) (truncf .bf16 x1 bitsLt_bf16_f32) x2 E W B
    broadcasts_S1x5_S5000x5 r R q hx hw hb

/-- What point t writes back is block t of E · W + b. -/
theorem flushed_affine (c : Dev nD) (t : Fin cfg1.N) :
    (dat1 V c).flushed 3 t
      = ((cfg1.win 3).blk t).view.read (Elt Ideal)
          (Cert.Affine.affine (M := 200000) (K := 256) (N := 5) (V c main_v65) (V c main_arg5) (V c main_v66)) := by
  show (cfg1.win 3).cut (grid1.coords t) ((dat1 V c).after 3 t) = _
  rw [after1_3]
  unfold out1_3
  rw [View.canon_unit_zero zero_offsets]
  simp only [View.ld_unit_zero (S := S5000x256) zero_offsets, View.ld_unit_zero (S := S256x5) zero_offsets,
    View.ld_unit_zero (S := S1x5) zero_offsets]
  obtain ⟨e0, e1, e2, e3, e4, e5, e6, e7⟩ := block_indices t
  have ht : t.val < 40 := lt_of_lt_of_eq t.isLt N_1
  funext j
  obtain ⟨r, q, rfl⟩ : ∃ (r : Fin 5000) (q : Fin 5), j = ix2 r q := ⟨j 0, j 1, eq_ix2 j⟩
  have hr : r.val < 5000 := r.isLt
  have hR : t.val * 5000 + r.val < 200000 := by omega
  have hout : ((cfg1.win 3).blk t).view.emb (ix2 r q) = (ix2 (⟨t.val * 5000 + r.val, hR⟩ : Fin 200000) q : S200000x5.Idx) := by
    funext a; apply Fin.ext
    match a with
    | ⟨0, _⟩ => show win1_3.index t (0 : Fin 2) * 5000 + 1 * r.val = t.val * 5000 + r.val; omega
    | ⟨1, _⟩ => show win1_3.index t (1 : Fin 2) * 5 + 1 * q.val = q.val; omega
  refine (tile_entry (iblk1 V c 0 t) (iblk1 V c 1 t) (iblk1 V c 2 t) (V c main_v65) (V c main_arg5) (V c main_v66) r q
    ⟨t.val * 5000 + r.val, hR⟩ ?_ ?_ ?_).trans ?_
  · intro k
    show V c main_v65 (((cfg1.win 0).blk t).view.emb (ix2 r k)) = V c main_v65 (ix2 (⟨t.val * 5000 + r.val, hR⟩ : Fin 200000) k)
    refine congrArg (V c main_v65) (funext fun a => Fin.ext ?_)
    match a with
    | ⟨0, _⟩ => show win1_0.index t (0 : Fin 2) * 5000 + 1 * r.val = t.val * 5000 + r.val; omega
    | ⟨1, _⟩ => show win1_0.index t (1 : Fin 2) * 256 + 1 * k.val = k.val; omega
  · intro k
    show V c main_arg5 (((cfg1.win 1).blk t).view.emb (ix2 k q)) = V c main_arg5 (ix2 k q)
    refine congrArg (V c main_arg5) (funext fun a => Fin.ext ?_)
    match a with
    | ⟨0, _⟩ => show win1_1.index t (0 : Fin 2) * 256 + 1 * k.val = k.val; omega
    | ⟨1, _⟩ => show win1_1.index t (1 : Fin 2) * 5 + 1 * q.val = q.val; omega
  · show V c main_v66 (((cfg1.win 2).blk t).view.emb (ix2 (0 : Fin 1) q)) = V c main_v66 (ix2 (0 : Fin 1) q)
    refine congrArg (V c main_v66) (funext fun a => Fin.ext ?_)
    match a with
    | ⟨0, _⟩ => show win1_2.index t (0 : Fin 2) * 1 + 1 * 0 = 0; omega
    | ⟨1, _⟩ => show win1_2.index t (1 : Fin 2) * 5 + 1 * q.val = q.val; omega
  · show _ = Cert.Affine.affine (M := 200000) (K := 256) (N := 5) (V c main_v65) (V c main_arg5) (V c main_v66)
        (((cfg1.win 3).blk t).view.emb (ix2 r q))
    rw [hout]
    rfl

/-- An index of the output is in point t's block iff each coordinate is in the block's range on its axis. -/
theorem mem_block (t : Fin cfg1.N) (i : S200000x5.Idx) :
    i ∈ ((cfg1.win 3).blk t).view.set ↔ ∀ a : Fin 2, win1_3.index t a * S5000x5.size a ≤ (i a).val ∧ (i a).val < win1_3.index t a * S5000x5.size a + S5000x5.size a := by
  show i ∈ ((View.whole main_v67).slice (win1_3.rect t)).set ↔ _
  rw [View.set_slice_whole, Rect.mem_set_unit]
  exact Iff.rfl

/-- The 40 blocks tile the output: row i lies in the block of point i / 5000. -/
theorem covered (i : S200000x5.Idx) :
    ∃ t : Fin cfg1.N, (cfg1.win 3).flush t = true ∧ i ∈ ((cfg1.win 3).blk t).view.set := by
  have h0 : (i 0).val < 200000 := (i 0).isLt
  have h1 : (i 1).val < 5 := (i 1).isLt
  obtain ⟨t, ht⟩ : ∃ t : Fin cfg1.N, t.val = (i 0).val / 5000 :=
    ⟨⟨(i 0).val / 5000, by rw [show cfg1.N = 40 from N_1]; omega⟩, rfl⟩
  obtain ⟨-, -, -, -, -, -, e6, e7⟩ := block_indices t
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 5 ≤ (i 1).val ∧ (i 1).val < win1_3.index t (1 : Fin 2) * 5 + 5; omega

/-- The region's output array ends holding E · W + b of the arrays the region finds. -/
theorem affine_array (c : Dev nD) :
    (dat1 V c).arrAt 3 cfg1.N
      = Cert.Affine.affine (M := 200000) (K := 256) (N := 5) (V c main_v65) (V c main_arg5) (V c main_v66) :=
  (dat1 V c).arrAt_eq_of_cover 3 (Cert.Affine.affine (M := 200000) (K := 256) (N := 5) (V c main_v65) (V c main_arg5) (V c main_v66))
    (fun t _ => flushed_affine V c t) covered

end Cert.KernelIdeal.AffineTiles

end
-- ==== Proof.KernelValue.lean ====
/-
  The kernel program's result as one function of its arguments.

  @main runs the first tile kernel, then the graph layer's host chain, then the second tile kernel. The first region
  leaves x · W in its output array and every other buffer as launched; the host chain, read through its three stretches
  of operations, leaves the labelled pairs' rows of the graph layer of that array, the output bias cast to a [1, 5] row,
  and the arguments untouched; the second region leaves E · W' + b of what it finds. So the result buffer ends holding
  the affine map of the graph layer of x · W.
-/
import proofs.«127994_j33303176413370_1_alg».proof.Proof.Gen.KernelIdeal.Frame
import proofs.«127994_j33303176413370_1_alg».proof.Proof.HostChain
import proofs.«127994_j33303176413370_1_alg».proof.Proof.LibConcatPair
import proofs.«127994_j33303176413370_1_alg».proof.Proof.RegionProduct
import proofs.«127994_j33303176413370_1_alg».proof.Proof.RegionAffine
import proofs.«127994_j33303176413370_1_alg».proof.Proof.KernelRun

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Idealize.ShloMosaic.StableHlo

/-! ## The host chain, through its three stretches, from any contents -/

section Chain

variable {F : FTy → Type} [FloatOps F]

set_option maxHeartbeats 40000000 in
/-- After the three stretches the pair-rows buffer holds the graph layer of what the product buffer held. -/
theorem pairRows_after (X : Valuation τ sig (Elt F)) :
    StableHlo.after hostOps1_2 (StableHlo.after hostOps1_1 (StableHlo.after hostOps1 X)) (Proc.devRef .tc main_v65)
      = Cert.GraphLayer.pairRows (F := F) (X (Proc.devRef .tc main_v0)) (X (Proc.devRef .tc main_arg1))
          (X (Proc.devRef .tc main_arg2)) (X (Proc.devRef .tc main_arg4)) := by
  after_results_joined
  rfl

/-- The output weight is untouched by the three stretches. -/
theorem weight_after (X : Valuation τ sig (Elt F)) :
    StableHlo.after hostOps1_2 (StableHlo.after hostOps1_1 (StableHlo.after hostOps1 X)) (Proc.devRef .tc main_arg5)
      = X (Proc.devRef .tc main_arg5) := by
  after_results_simp

/-- The bias row's buffer holds the output bias cast to a [1, 5] row. -/
theorem biasRow_after (X : Valuation τ sig (Elt F)) :
    StableHlo.after hostOps1_2 (StableHlo.after hostOps1_1 (StableHlo.after hostOps1 X)) (Proc.devRef .tc main_v66)
      = shapeCast S1x5 (X (Proc.devRef .tc main_arg6)) Facts₀.shapeCasts_S5_S1x5 := by
  after_results_simp
  rfl

end Chain

/-! ## The run, over the extended reals -/

variable (m : (ℓ : Loc nD τ sig) → Buf (Elt Ideal) ℓ) (ρ : Dev nD → PrngReg)

/-- The program's result as one function of the argument arrays: the affine map of the graph layer of x · W. -/
def result (c : Dev nD) : Buf (Elt Ideal) ((c : Thread nD τ).loc main_v67) :=
  Cert.Affine.affine (M := 200000) (K := 256) (N := 5)
    (Cert.GraphLayer.pairRows (F := Ideal)
      (Cert.Affine.prod (M := 100000) (K := 128) (N := 128) (m ((c : Thread nD τ).loc main_arg0)) (m ((c : Thread nD τ).loc main_arg3)))
      (m ((c : Thread nD τ).loc main_arg1)) (m ((c : Thread nD τ).loc main_arg2)) (m ((c : Thread nD τ).loc main_arg4)))
    (m ((c : Thread nD τ).loc main_arg5))
    (shapeCast S1x5 (m ((c : Thread nD τ).loc main_arg6)) Facts₀.shapeCasts_S5_S1x5)

/-- At the first region's exit the product buffer holds x · W. -/
theorem product_at_exit (c : Dev nD) :
    W1 m ρ c (Proc.devRef .tc main_v0)
      = Cert.Affine.prod (M := 100000) (K := 128) (N := 128) (m ((c : Thread nD τ).loc main_arg0)) (m ((c : Thread nD τ).loc main_arg3)) :=
  (W1_arr m ρ c 2).trans (Cert.KernelIdeal.Product.product_array (V0 m ρ) c)

/-- A buffer the first region does not stage is as launched at its exit. -/
theorem arg1_at_exit (c : Dev nD) : W1 m ρ c (Proc.devRef .tc main_arg1) = (m ((c : Thread nD τ).loc main_arg1)) :=
  W1_of_ne m ρ c main_arg1 (by decide)
theorem arg2_at_exit (c : Dev nD) : W1 m ρ c (Proc.devRef .tc main_arg2) = (m ((c : Thread nD τ).loc main_arg2)) :=
  W1_of_ne m ρ c main_arg2 (by decide)
theorem arg4_at_exit (c : Dev nD) : W1 m ρ c (Proc.devRef .tc main_arg4) = (m ((c : Thread nD τ).loc main_arg4)) :=
  W1_of_ne m ρ c main_arg4 (by decide)
theorem arg5_at_exit (c : Dev nD) : W1 m ρ c (Proc.devRef .tc main_arg5) = (m ((c : Thread nD τ).loc main_arg5)) :=
  W1_of_ne m ρ c main_arg5 (by decide)
theorem arg6_at_exit (c : Dev nD) : W1 m ρ c (Proc.devRef .tc main_arg6) = (m ((c : Thread nD τ).loc main_arg6)) :=
  W1_of_ne m ρ c main_arg6 (by decide)

/-- At the last boundary the result buffer holds the affine map of the graph layer of x · W. -/
theorem result_at_end (c : Dev nD) : W5 m ρ c (Proc.devRef .tc main_v67) = result m c := by
  refine (W5_arr m ρ c 3).trans ((Cert.KernelIdeal.AffineTiles.affine_array (V4 m ρ) c).trans ?_)
  show Cert.Affine.affine (M := 200000) (K := 256) (N := 5)
      (StableHlo.after hostOps1_2 (StableHlo.after hostOps1_1 (StableHlo.after hostOps1 (W1 m ρ c))) (Proc.devRef .tc main_v65))
      (StableHlo.after hostOps1_2 (StableHlo.after hostOps1_1 (StableHlo.after hostOps1 (W1 m ρ c))) (Proc.devRef .tc main_arg5))
      (StableHlo.after hostOps1_2 (StableHlo.after hostOps1_1 (StableHlo.after hostOps1 (W1 m ρ c))) (Proc.devRef .tc main_v66)) = _
  rw [pairRows_after, weight_after, biasRow_after, product_at_exit, arg1_at_exit, arg2_at_exit, arg4_at_exit, arg5_at_exit,
    arg6_at_exit]
  rfl

/-- The run of @main: every weakly fair execution terminates, nothing faulting, with the result buffer at `result` and the
    arguments as launched. -/
theorem run : θ_run defs (onTc (τ := τ) (main (F := Ideal))) ⟨m, fun _ => 0, ρ⟩ (fun r => ∀ c : Dev nD,
      r.2.mem ((c.tc : Thread nD τ).loc main_v67) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_at_end m ρ c), (h c).2⟩)
    (Cert.KernelIdeal.GenRun.run_result (F := Ideal) m ρ)

end Cert.KernelIdeal.Whole

end
-- ==== Proof.lean ====
/-
  A graph convolution followed by a linear layer on pairs of nodes, against its jnp reference, over the extended reals.

  Both programs compute, for node features x [100000, 128], an edge list, a list of labelled node pairs, and weights
  W [128, 128], b [128], W' [256, 5], b' [5]:

      xw = x · W;   h = (sum over the edges into a node of the edge's weight times the source's row of xw) + b;
      out (p, ·) = (h (first p, ·) next to h (second p, ·)) · W' + b'.

  The reference does all of it on the host. The kernel's program computes the two matrix products in tile kernels — 20 tiles
  of 5000 rows for x · W, 40 tiles of 5000 rows for the last product and its bias —, each tile narrowing its operands to
  bf16 and multiplying into a zero f32 accumulator, and runs the graph layer between them on the host, operation for
  operation as the reference does. Over the extended reals the narrowing is the identity and a tile's product is the
  same sum of the same products as the whole product's rows (an entry reads one row of the left operand only), so both
  results are ONE function of the arguments: the affine map of the graph layer of x · W. The graph layer itself is never
  opened: it is the same function applied to equal arrays. No algebraic law is used, and the inputs' finiteness is not
  needed.

  The three frames are the generated frame proofs (the reference's is its run with the result dropped); the ideal pass
  rewrote nothing, so `preserves` is trivial.
-/
import proofs.«127994_j33303176413370_1_alg».proof.Defs
import proofs.«127994_j33303176413370_1_alg».proof.Proof.Gen.Kernel
import proofs.«127994_j33303176413370_1_alg».proof.Proof.Gen.Kernel.Frame
import proofs.«127994_j33303176413370_1_alg».proof.Proof.Gen.KernelIdeal
import proofs.«127994_j33303176413370_1_alg».proof.Proof.Gen.KernelIdeal.Frame
import proofs.«127994_j33303176413370_1_alg».proof.Proof.Gen.ReferenceIdeal
import proofs.«127994_j33303176413370_1_alg».proof.Proof.Gen.Pre_finite_inputs
import proofs.«127994_j33303176413370_1_alg».proof.Proof.RefRun
import proofs.«127994_j33303176413370_1_alg».proof.Proof.RefValue
import proofs.«127994_j33303176413370_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- Both programs end with the affine map of the graph layer of x · W in their result buffers: the kernel's program by
    its run read through the two regions and the host chain, the reference by its run read entry by entry; from
    memories that agree on the arguments the two are the same array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  rw [Cert.ReferenceIdeal.Whole.result_eq, h0, h1, h2, h3, h4, h5, h6]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
